-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8x2048x2048 : Shape := ⟨4, ![2, 8, 2048, 2048]⟩
abbrev S2x2048x3 : Shape := ⟨3, ![2, 2048, 3]⟩
abbrev S2x2048x1 : Shape := ⟨3, ![2, 2048, 1]⟩
abbrev S4x8 : Shape := ⟨2, ![4, 8]⟩
abbrev S_ : Shape := ⟨0, ![]⟩

class Facts : Prop where
  bcast_S_S2x8x2048x2048 : S_.BroadcastsInDim S2x8x2048x2048 (![] : Fin 0 → Fin S2x8x2048x2048.rank)
  reducesTo_S2x8x2048x2048_S_d0_1_2_3 : S2x8x2048x2048.ReducesTo [0, 1, 2, 3] S_
  h_S_ : 0 < S_.numel
  bcast_S_S2x2048x3 : S_.BroadcastsInDim S2x2048x3 (![] : Fin 0 → Fin S2x2048x3.rank)
  reducesTo_S2x2048x3_S_d0_1_2 : S2x2048x3.ReducesTo [0, 1, 2] S_
  bcast_S_S2x2048x1 : S_.BroadcastsInDim S2x2048x1 (![] : Fin 0 → Fin S2x2048x1.rank)
  reducesTo_S2x2048x1_S_d0_1_2 : S2x2048x1.ReducesTo [0, 1, 2] S_
  bcast_S_S4x8 : S_.BroadcastsInDim S4x8 (![] : Fin 0 → Fin S4x8.rank)
  reducesTo_S4x8_S_d0_1 : S4x8.ReducesTo [0, 1] S_

variable [Facts]

def fn_part2 {F : FTy → Type} [FloatOps F] (main_arg7 : FVec F S4x8 .f32) (main_arg8 : FVec F S4x8 .f32) (main_v33 : IVec S_ 1) : IVec S_ 1 :=
  let main_v34 : FVec F S4x8 .f32 := Host.absf main_arg7
  let main_cst_12 : FVec F S_ .f32 := constant S_ .f32 0x7F800000#32
  let main_v35 : FVec F S4x8 .f32 := broadcastInDim S4x8 ![] bcast_S_S4x8 main_cst_12
  let main_v36 : IVec S4x8 1 := cmpf .olt main_v34 main_v35
  let main_c_13 : IVec S_ 1 := constantI S_ 1 1#1
  let main_v37 : IVec S_ 1 := (fun x v => Host.reduce IntOp.andi x v reducesTo_S4x8_S_d0_1 h_S_) main_v36 main_c_13
  let main_v38 : IVec S_ 1 := andi main_v33 main_v37
  let main_v39 : FVec F S4x8 .f32 := Host.absf main_arg8
  let main_cst_14 : FVec F S_ .f32 := constant S_ .f32 0x7F800000#32
  let main_v40 : FVec F S4x8 .f32 := broadcastInDim S4x8 ![] bcast_S_S4x8 main_cst_14
  let main_v41 : IVec S4x8 1 := cmpf .olt main_v39 main_v40
  let main_c_15 : IVec S_ 1 := constantI S_ 1 1#1
  let main_v42 : IVec S_ 1 := (fun x v => Host.reduce IntOp.andi x v reducesTo_S4x8_S_d0_1 h_S_) main_v41 main_c_15
  let main_v43 : IVec S_ 1 := andi main_v38 main_v42
  main_v43

def fn_part1 {F : FTy → Type} [FloatOps F] (main_arg4 : FVec F S2x2048x1 .f32) (main_arg5 : FVec F S4x8 .f32) (main_arg6 : FVec F S4x8 .f32) (main_arg7 : FVec F S4x8 .f32) (main_arg8 : FVec F S4x8 .f32) (main_v13 : IVec S_ 1) (main_v16 : IVec S2x2048x1 1) : IVec S_ 1 :=
  let main_c_5 : IVec S_ 1 := constantI S_ 1 1#1
  let main_v17 : IVec S_ 1 := (fun x v => Host.reduce IntOp.andi x v reducesTo_S2x2048x1_S_d0_1_2 h_S_) main_v16 main_c_5
  let main_v18 : IVec S_ 1 := andi main_v13 main_v17
  let main_v19 : FVec F S2x2048x1 .f32 := Host.absf main_arg4
  let main_cst_6 : FVec F S_ .f32 := constant S_ .f32 0x7F800000#32
  let main_v20 : FVec F S2x2048x1 .f32 := broadcastInDim S2x2048x1 ![] bcast_S_S2x2048x1 main_cst_6
  let main_v21 : IVec S2x2048x1 1 := cmpf .olt main_v19 main_v20
  let main_c_7 : IVec S_ 1 := constantI S_ 1 1#1
  let main_v22 : IVec S_ 1 := (fun x v => Host.reduce IntOp.andi x v reducesTo_S2x2048x1_S_d0_1_2 h_S_) main_v21 main_c_7
  let main_v23 : IVec S_ 1 := andi main_v18 main_v22
  let main_v24 : FVec F S4x8 .f32 := Host.absf main_arg5
  let main_cst_8 : FVec F S_ .f32 := constant S_ .f32 0x7F800000#32
  let main_v25 : FVec F S4x8 .f32 := broadcastInDim S4x8 ![] bcast_S_S4x8 main_cst_8
  let main_v26 : IVec S4x8 1 := cmpf .olt main_v24 main_v25
  let main_c_9 : IVec S_ 1 := constantI S_ 1 1#1
  let main_v27 : IVec S_ 1 := (fun x v => Host.reduce IntOp.andi x v reducesTo_S4x8_S_d0_1 h_S_) main_v26 main_c_9
  let main_v28 : IVec S_ 1 := andi main_v23 main_v27
  let main_v29 : FVec F S4x8 .f32 := Host.absf main_arg6
  let main_cst_10 : FVec F S_ .f32 := constant S_ .f32 0x7F800000#32
  let main_v30 : FVec F S4x8 .f32 := broadcastInDim S4x8 ![] bcast_S_S4x8 main_cst_10
  let main_v31 : IVec S4x8 1 := cmpf .olt main_v29 main_v30
  let main_c_11 : IVec S_ 1 := constantI S_ 1 1#1
  let main_v32 : IVec S_ 1 := (fun x v => Host.reduce IntOp.andi x v reducesTo_S4x8_S_d0_1 h_S_) main_v31 main_c_11
  let main_v33 : IVec S_ 1 := andi main_v28 main_v32
  fn_part2 (F := F) main_arg7 main_arg8 main_v33

def fn {F : FTy → Type} [FloatOps F] (main_arg0 : FVec F S2x8x2048x2048 .f32) (main_arg1 : FVec F S2x2048x3 .f32) (main_arg2 : FVec F S2x2048x3 .f32) (main_arg3 : FVec F S2x2048x1 .f32) (main_arg4 : FVec F S2x2048x1 .f32) (main_arg5 : FVec F S4x8 .f32) (main_arg6 : FVec F S4x8 .f32) (main_arg7 : FVec F S4x8 .f32) (main_arg8 : FVec F S4x8 .f32) : IVec S_ 1 :=
  let main_v0 : FVec F S2x8x2048x2048 .f32 := Host.absf main_arg0
  let main_cst : FVec F S_ .f32 := constant S_ .f32 0x7F800000#32
  let main_v1 : FVec F S2x8x2048x2048 .f32 := broadcastInDim S2x8x2048x2048 ![] bcast_S_S2x8x2048x2048 main_cst
  let main_v2 : IVec S2x8x2048x2048 1 := cmpf .olt main_v0 main_v1
  let main_c : IVec S_ 1 := constantI S_ 1 1#1
  let main_v3 : IVec S_ 1 := (fun x v => Host.reduce IntOp.andi x v reducesTo_S2x8x2048x2048_S_d0_1_2_3 h_S_) main_v2 main_c
  let main_v4 : FVec F S2x2048x3 .f32 := Host.absf main_arg1
  let main_cst_0 : FVec F S_ .f32 := constant S_ .f32 0x7F800000#32
  let main_v5 : FVec F S2x2048x3 .f32 := broadcastInDim S2x2048x3 ![] bcast_S_S2x2048x3 main_cst_0
  let main_v6 : IVec S2x2048x3 1 := cmpf .olt main_v4 main_v5
  let main_c_1 : IVec S_ 1 := constantI S_ 1 1#1
  let main_v7 : IVec S_ 1 := (fun x v => Host.reduce IntOp.andi x v reducesTo_S2x2048x3_S_d0_1_2 h_S_) main_v6 main_c_1
  let main_v8 : IVec S_ 1 := andi main_v3 main_v7
  let main_v9 : FVec F S2x2048x3 .f32 := Host.absf main_arg2
  let main_cst_2 : FVec F S_ .f32 := constant S_ .f32 0x7F800000#32
  let main_v10 : FVec F S2x2048x3 .f32 := broadcastInDim S2x2048x3 ![] bcast_S_S2x2048x3 main_cst_2
  let main_v11 : IVec S2x2048x3 1 := cmpf .olt main_v9 main_v10
  let main_c_3 : IVec S_ 1 := constantI S_ 1 1#1
  let main_v12 : IVec S_ 1 := (fun x v => Host.reduce IntOp.andi x v reducesTo_S2x2048x3_S_d0_1_2 h_S_) main_v11 main_c_3
  let main_v13 : IVec S_ 1 := andi main_v8 main_v12
  let main_v14 : FVec F S2x2048x1 .f32 := Host.absf main_arg3
  let main_cst_4 : FVec F S_ .f32 := constant S_ .f32 0x7F800000#32
  let main_v15 : FVec F S2x2048x1 .f32 := broadcastInDim S2x2048x1 ![] bcast_S_S2x2048x1 main_cst_4
  let main_v16 : IVec S2x2048x1 1 := cmpf .olt main_v14 main_v15
  fn_part1 (F := F) main_arg4 main_arg5 main_arg6 main_arg7 main_arg8 main_v13 main_v16
-- ==== Kernel.lean ====
abbrev S2x8x2048x2048 : Shape := ⟨4, ![2, 8, 2048, 2048]⟩
abbrev S2x2048x3 : Shape := ⟨3, ![2, 2048, 3]⟩
abbrev S2x2048x1 : Shape := ⟨3, ![2, 2048, 1]⟩
abbrev S4x8 : Shape := ⟨2, ![4, 8]⟩
abbrev S1x8x256x512 : Shape := ⟨4, ![1, 8, 256, 512]⟩
abbrev S1x256x3 : Shape := ⟨3, ![1, 256, 3]⟩
abbrev S1x512x3 : Shape := ⟨3, ![1, 512, 3]⟩
abbrev S1x256x1 : Shape := ⟨3, ![1, 256, 1]⟩
abbrev S1x512x1 : Shape := ⟨3, ![1, 512, 1]⟩
abbrev S256x3 : Shape := ⟨2, ![256, 3]⟩
abbrev S512x3 : Shape := ⟨2, ![512, 3]⟩
abbrev S256x512 : Shape := ⟨2, ![256, 512]⟩
abbrev S256x1 : Shape := ⟨2, ![256, 1]⟩
abbrev S256 : Shape := ⟨1, ![256]⟩
abbrev S512x1 : Shape := ⟨2, ![512, 1]⟩
abbrev S512 : Shape := ⟨1, ![512]⟩
abbrev S1x512 : Shape := ⟨2, ![1, 512]⟩
abbrev S8x256x512 : Shape := ⟨3, ![8, 256, 512]⟩
abbrev S1x8 : Shape := ⟨2, ![1, 8]⟩
abbrev S8 : Shape := ⟨1, ![8]⟩
abbrev S8x1x1 : Shape := ⟨3, ![8, 1, 1]⟩
abbrev S1x256x512 : Shape := ⟨3, ![1, 256, 512]⟩

abbrev nBuf : Space → Nat
  | .hbm => 10
  | .vmem => 16
  | .smem => 0
  | _ => 0

abbrev bufTy : (tb : Table) → Fin (tcTables nBuf tb) → BufTy
  | .hbm, ⟨0, _⟩ => ⟨S2x8x2048x2048, .f32⟩
  | .hbm, ⟨1, _⟩ => ⟨S2x2048x3, .f32⟩
  | .hbm, ⟨2, _⟩ => ⟨S2x2048x3, .f32⟩
  | .hbm, ⟨3, _⟩ => ⟨S2x2048x1, .f32⟩
  | .hbm, ⟨4, _⟩ => ⟨S2x2048x1, .f32⟩
  | .hbm, ⟨5, _⟩ => ⟨S4x8, .f32⟩
  | .hbm, ⟨6, _⟩ => ⟨S4x8, .f32⟩
  | .hbm, ⟨7, _⟩ => ⟨S4x8, .f32⟩
  | .hbm, ⟨8, _⟩ => ⟨S4x8, .f32⟩
  | .hbm, ⟨9, _⟩ => ⟨S2x8x2048x2048, .f32⟩
  | .local _ .vmem, ⟨0, _⟩ => ⟨S1x8x256x512, .f32⟩
  | .local _ .vmem, ⟨1, _⟩ => ⟨S1x8x256x512, .f32⟩
  | .local _ .vmem, ⟨2, _⟩ => ⟨S1x256x3, .f32⟩
  | .local _ .vmem, ⟨3, _⟩ => ⟨S1x256x3, .f32⟩
  | .local _ .vmem, ⟨4, _⟩ => ⟨S1x512x3, .f32⟩
  | .local _ .vmem, ⟨5, _⟩ => ⟨S1x512x3, .f32⟩
  | .local _ .vmem, ⟨6, _⟩ => ⟨S1x256x1, .f32⟩
  | .local _ .vmem, ⟨7, _⟩ => ⟨S1x256x1, .f32⟩
  | .local _ .vmem, ⟨8, _⟩ => ⟨S1x512x1, .f32⟩
  | .local _ .vmem, ⟨9, _⟩ => ⟨S1x512x1, .f32⟩
  | .local _ .vmem, ⟨10, _⟩ => ⟨S4x8, .f32⟩
  | .local _ .vmem, ⟨11, _⟩ => ⟨S4x8, .f32⟩
  | .local _ .vmem, ⟨12, _⟩ => ⟨S4x8, .f32⟩
  | .local _ .vmem, ⟨13, _⟩ => ⟨S4x8, .f32⟩
  | .local _ .vmem, ⟨14, _⟩ => ⟨S1x8x256x512, .f32⟩
  | .local _ .vmem, ⟨15, _⟩ => ⟨S1x8x256x512, .f32⟩
  | _, _ => ⟨S2x8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨3, ![2, 8, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

abbrev stage0_0 : Fin 2 → Memref sig .tc .vmem S1x8x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 1 → Memref sig .tc .vmem S4x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S4x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S4x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S4x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x8x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

class Facts₀ : Prop where
  inb_S1x256x3_S1x256x3_0_0_0 : ∀ a, (![0, 0, 0] : Fin 3 → Nat) a + S1x256x3.size a ≤ S1x256x3.size a
  h_S1x256x3 : 0 < S1x256x3.numel
  shapeCasts_S1x256x3_S256x3 : S1x256x3.ShapeCasts S256x3
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  slices_S256x3_o0_0_S256x1 : S256x3.Slices ![0, 0] S256x1
  shapeCasts_S256x1_S256 : S256x1.ShapeCasts S256
  shapeCasts_S256_S256x1 : S256.ShapeCasts S256x1
  slices_S512x3_o0_0_S512x1 : S512x3.Slices ![0, 0] S512x1
  shapeCasts_S512x1_S512 : S512x1.ShapeCasts S512
  shapeCasts_S512_S1x512 : S512.ShapeCasts S1x512
  broadcasts_S256x1_S256x512 : S256x1.Broadcasts S256x512
  broadcasts_S1x512_S256x512 : S1x512.Broadcasts S256x512
  slices_S256x3_o0_1_S256x1 : S256x3.Slices ![0, 1] S256x1
  slices_S512x3_o0_1_S512x1 : S512x3.Slices ![0, 1] S512x1
  slices_S256x3_o0_2_S256x1 : S256x3.Slices ![0, 2] S256x1
  slices_S512x3_o0_2_S512x1 : S512x3.Slices ![0, 2] S512x1
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  inb_S4x8_S1x8_0_0 : ∀ a, (![0, 0] : Fin 2 → Nat) a + S1x8.size a ≤ S4x8.size a
  h_S1x8 : 0 < S1x8.numel
  shapeCasts_S1x8_S8 : S1x8.ShapeCasts S8
  shapeCasts_S8_S8x1x1 : S8.ShapeCasts S8x1x1
  shapeCasts_S256x512_S1x256x512 : S256x512.ShapeCasts S1x256x512
  broadcasts_S8x1x1_S8x256x512 : S8x1x1.Broadcasts S8x256x512
  broadcasts_S1x256x512_S8x256x512 : S1x256x512.Broadcasts S8x256x512
  inb_S4x8_S1x8_1_0 : ∀ a, (![1, 0] : Fin 2 → Nat) a + S1x8.size a ≤ S4x8.size a
  inb_S4x8_S1x8_2_0 : ∀ a, (![2, 0] : Fin 2 → Nat) a + S1x8.size a ≤ S4x8.size a
  inb_S4x8_S1x8_3_0 : ∀ a, (![3, 0] : Fin 2 → Nat) a + S1x8.size a ≤ S4x8.size a
  inb_S1x8x256x512_S1x8x256x512_0_0_0_0 : ∀ a, (![0, 0, 0, 0] : Fin 4 → Nat) a + S1x8x256x512.size a ≤ S1x8x256x512.size a
  h_S1x8x256x512 : 0 < S1x8x256x512.numel
  shapeCasts_S1x8x256x512_S8x256x512 : S1x8x256x512.ShapeCasts S8x256x512
  shapeCasts_S8x256x512_S1x8x256x512 : S8x256x512.ShapeCasts S1x8x256x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x256x512.size a ≤ S2x8x2048x2048.size a
  hwx0_0 : ∀ i : grid0.Coords, EltTy.bits .f32 = 32 ∨ (Rect.block (s := S2x8x2048x2048) S1x8x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x3.size a ≤ S2x2048x3.size a
  hwx0_1 : ∀ i : grid0.Coords, EltTy.bits .f32 = 32 ∨ (Rect.block (s := S2x2048x3) S1x256x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x3.size a ≤ S2x2048x3.size a
  hwx0_2 : ∀ i : grid0.Coords, EltTy.bits .f32 = 32 ∨ (Rect.block (s := S2x2048x3) S1x512x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1.size a ≤ S2x2048x1.size a
  hwx0_3 : ∀ i : grid0.Coords, EltTy.bits .f32 = 32 ∨ (Rect.block (s := S2x2048x1) S1x256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1.size a ≤ S2x2048x1.size a
  hwx0_4 : ∀ i : grid0.Coords, EltTy.bits .f32 = 32 ∨ (Rect.block (s := S2x2048x1) S1x512x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x8.size a ≤ S4x8.size a
  hwx0_5 : ∀ i : grid0.Coords, EltTy.bits .f32 = 32 ∨ (Rect.block (s := S4x8) S4x8.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x8.size a ≤ S4x8.size a
  hwx0_6 : ∀ i : grid0.Coords, EltTy.bits .f32 = 32 ∨ (Rect.block (s := S4x8) S4x8.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x8.size a ≤ S4x8.size a
  hwx0_7 : ∀ i : grid0.Coords, EltTy.bits .f32 = 32 ∨ (Rect.block (s := S4x8) S4x8.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4x8.size a ≤ S4x8.size a
  hwx0_8 : ∀ i : grid0.Coords, EltTy.bits .f32 = 32 ∨ (Rect.block (s := S4x8) S4x8.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x8x256x512.size a ≤ S2x8x2048x2048.size a
  hwx0_9 : ∀ i : grid0.Coords, EltTy.bits .f32 = 32 ∨ (Rect.block (s := S2x8x2048x2048) S1x8x256x512.size (cc0_transform_9 i) (hinb0_9 i)).WholeWords (EltTy.packing .f32)

variable [Facts₀]

abbrev win0_0 : Pipeline.Window sig grid0 :=
  Pipeline.Window.ofSpec (Memref.whole main_arg0) S1x8x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S4x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S4x8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S4x8.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S1x8x256x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S2x8x2048x2048 : Shape := ⟨4, ![2, 8, 2048, 2048]⟩
abbrev S2x2048x3 : Shape := ⟨3, ![2, 2048, 3]⟩
abbrev S2x2048x1 : Shape := ⟨3, ![2, 2048, 1]⟩
abbrev S4x8 : Shape := ⟨2, ![4, 8]⟩
abbrev S2x2048x1x3 : Shape := ⟨4, ![2, 2048, 1, 3]⟩
abbrev S2x1x2048x3 : Shape := ⟨4, ![2, 1, 2048, 3]⟩
abbrev S2x2048x2048x3 : Shape := ⟨4, ![2, 2048, 2048, 3]⟩
abbrev S_ : Shape := ⟨0, ![]⟩
abbrev S2x2048x2048 : Shape := ⟨3, ![2, 2048, 2048]⟩
abbrev S2x2048x1x1 : Shape := ⟨4, ![2, 2048, 1, 1]⟩
abbrev S2x1x2048x1 : Shape := ⟨4, ![2, 1, 2048, 1]⟩
abbrev S2x2048x2048x1 : Shape := ⟨4, ![2, 2048, 2048, 1]⟩
abbrev S1x8 : Shape := ⟨2, ![1, 8]⟩
abbrev S8 : Shape := ⟨1, ![8]⟩
abbrev S1x8x1x1 : Shape := ⟨4, ![1, 8, 1, 1]⟩
abbrev S2x1x2048x2048 : Shape := ⟨4, ![2, 1, 2048, 2048]⟩

abbrev nBuf : Space → Nat
  | .hbm => 145
  | .vmem => 0
  | .smem => 0
  | _ => 0

abbrev hbmTy0_0 (i : Nat) : BufTy := match i % 128 with
  | 0 => ⟨S2x8x2048x2048, .f32⟩
  | 1 => ⟨S2x2048x3, .f32⟩
  | 2 => ⟨S2x2048x3, .f32⟩
  | 3 => ⟨S2x2048x1, .f32⟩
  | 4 => ⟨S2x2048x1, .f32⟩
  | 5 => ⟨S4x8, .f32⟩
  | 6 => ⟨S4x8, .f32⟩
  | 7 => ⟨S4x8, .f32⟩
  | 8 => ⟨S4x8, .f32⟩
  | 9 => ⟨S2x2048x1x3, .f32⟩
  | 10 => ⟨S2x1x2048x3, .f32⟩
  | 11 => ⟨S2x2048x2048x3, .f32⟩
  | 12 => ⟨S2x2048x2048x3, .f32⟩
  | 13 => ⟨S2x2048x2048x3, .f32⟩
  | 14 => ⟨S2x2048x2048x3, .f32⟩
  | 15 => ⟨S_, .f32⟩
  | 16 => ⟨S2x2048x2048, .f32⟩
  | 17 => ⟨S2x2048x1x1, .f32⟩
  | 18 => ⟨S2x1x2048x1, .f32⟩
  | 19 => ⟨S2x2048x2048x1, .f32⟩
  | 20 => ⟨S2x2048x2048x1, .f32⟩
  | 21 => ⟨S2x2048x2048x1, .f32⟩
  | 22 => ⟨S2x2048x2048x1, .f32⟩
  | 23 => ⟨S_, .f32⟩
  | 24 => ⟨S2x2048x2048, .f32⟩
  | 25 => ⟨S1x8, .f32⟩
  | 26 => ⟨S8, .f32⟩
  | 27 => ⟨S1x8x1x1, .f32⟩
  | 28 => ⟨S1x8, .f32⟩
  | 29 => ⟨S8, .f32⟩
  | 30 => ⟨S1x8x1x1, .f32⟩
  | 31 => ⟨S1x8x1x1, .f32⟩
  | 32 => ⟨S2x1x2048x2048, .f32⟩
  | 33 => ⟨S2x8x2048x2048, .f32⟩
  | 34 => ⟨S2x8x2048x2048, .f32⟩
  | 35 => ⟨S2x8x2048x2048, .f32⟩
  | 36 => ⟨S2x8x2048x2048, .f32⟩
  | 37 => ⟨S2x8x2048x2048, .f32⟩
  | 38 => ⟨S2x8x2048x2048, .f32⟩
  | 39 => ⟨S2x8x2048x2048, .f32⟩
  | 40 => ⟨S1x8, .f32⟩
  | 41 => ⟨S8, .f32⟩
  | 42 => ⟨S1x8x1x1, .f32⟩
  | 43 => ⟨S1x8, .f32⟩
  | 44 => ⟨S8, .f32⟩
  | 45 => ⟨S1x8x1x1, .f32⟩
  | 46 => ⟨S1x8x1x1, .f32⟩
  | 47 => ⟨S2x1x2048x2048, .f32⟩
  | 48 => ⟨S2x8x2048x2048, .f32⟩
  | 49 => ⟨S2x8x2048x2048, .f32⟩
  | 50 => ⟨S2x8x2048x2048, .f32⟩
  | 51 => ⟨S2x8x2048x2048, .f32⟩
  | 52 => ⟨S2x8x2048x2048, .f32⟩
  | 53 => ⟨S2x8x2048x2048, .f32⟩
  | 54 => ⟨S2x8x2048x2048, .f32⟩
  | 55 => ⟨S1x8, .f32⟩
  | 56 => ⟨S8, .f32⟩
  | 57 => ⟨S1x8x1x1, .f32⟩
  | 58 => ⟨S1x8, .f32⟩
  | 59 => ⟨S8, .f32⟩
  | 60 => ⟨S1x8x1x1, .f32⟩
  | 61 => ⟨S1x8x1x1, .f32⟩
  | 62 => ⟨S2x1x2048x2048, .f32⟩
  | 63 => ⟨S2x8x2048x2048, .f32⟩
  | 64 => ⟨S2x8x2048x2048, .f32⟩
  | 65 => ⟨S2x8x2048x2048, .f32⟩
  | 66 => ⟨S2x8x2048x2048, .f32⟩
  | 67 => ⟨S2x8x2048x2048, .f32⟩
  | 68 => ⟨S2x8x2048x2048, .f32⟩
  | 69 => ⟨S2x8x2048x2048, .f32⟩
  | 70 => ⟨S1x8, .f32⟩
  | 71 => ⟨S8, .f32⟩
  | 72 => ⟨S1x8x1x1, .f32⟩
  | 73 => ⟨S1x8, .f32⟩
  | 74 => ⟨S8, .f32⟩
  | 75 => ⟨S1x8x1x1, .f32⟩
  | 76 => ⟨S1x8x1x1, .f32⟩
  | 77 => ⟨S2x1x2048x2048, .f32⟩
  | 78 => ⟨S2x8x2048x2048, .f32⟩
  | 79 => ⟨S2x8x2048x2048, .f32⟩
  | 80 => ⟨S2x8x2048x2048, .f32⟩
  | 81 => ⟨S2x8x2048x2048, .f32⟩
  | 82 => ⟨S2x8x2048x2048, .f32⟩
  | 83 => ⟨S2x8x2048x2048, .f32⟩
  | 84 => ⟨S2x8x2048x2048, .f32⟩
  | 85 => ⟨S1x8, .f32⟩
  | 86 => ⟨S8, .f32⟩
  | 87 => ⟨S1x8x1x1, .f32⟩
  | 88 => ⟨S1x8, .f32⟩
  | 89 => ⟨S8, .f32⟩
  | 90 => ⟨S1x8x1x1, .f32⟩
  | 91 => ⟨S1x8x1x1, .f32⟩
  | 92 => ⟨S2x1x2048x2048, .f32⟩
  | 93 => ⟨S2x8x2048x2048, .f32⟩
  | 94 => ⟨S2x8x2048x2048, .f32⟩
  | 95 => ⟨S2x8x2048x2048, .f32⟩
  | 96 => ⟨S2x8x2048x2048, .f32⟩
  | 97 => ⟨S2x8x2048x2048, .f32⟩
  | 98 => ⟨S2x8x2048x2048, .f32⟩
  | 99 => ⟨S2x8x2048x2048, .f32⟩
  | 100 => ⟨S1x8, .f32⟩
  | 101 => ⟨S8, .f32⟩
  | 102 => ⟨S1x8x1x1, .f32⟩
  | 103 => ⟨S1x8, .f32⟩
  | 104 => ⟨S8, .f32⟩
  | 105 => ⟨S1x8x1x1, .f32⟩
  | 106 => ⟨S1x8x1x1, .f32⟩
  | 107 => ⟨S2x1x2048x2048, .f32⟩
  | 108 => ⟨S2x8x2048x2048, .f32⟩
  | 109 => ⟨S2x8x2048x2048, .f32⟩
  | 110 => ⟨S2x8x2048x2048, .f32⟩
  | 111 => ⟨S2x8x2048x2048, .f32⟩
  | 112 => ⟨S2x8x2048x2048, .f32⟩
  | 113 => ⟨S2x8x2048x2048, .f32⟩
  | 114 => ⟨S2x8x2048x2048, .f32⟩
  | 115 => ⟨S1x8, .f32⟩
  | 116 => ⟨S8, .f32⟩
  | 117 => ⟨S1x8x1x1, .f32⟩
  | 118 => ⟨S1x8, .f32⟩
  | 119 => ⟨S8, .f32⟩
  | 120 => ⟨S1x8x1x1, .f32⟩
  | 121 => ⟨S1x8x1x1, .f32⟩
  | 122 => ⟨S2x1x2048x2048, .f32⟩
  | 123 => ⟨S2x8x2048x2048, .f32⟩
  | 124 => ⟨S2x8x2048x2048, .f32⟩
  | 125 => ⟨S2x8x2048x2048, .f32⟩
  | 126 => ⟨S2x8x2048x2048, .f32⟩
  | 127 => ⟨S2x8x2048x2048, .f32⟩
  | _ => ⟨S2x8x2048x2048, .f32⟩

abbrev hbmTy0_1 (i : Nat) : BufTy := match i % 128 with
  | 0 => ⟨S2x8x2048x2048, .f32⟩
  | 1 => ⟨S2x8x2048x2048, .f32⟩
  | 2 => ⟨S1x8, .f32⟩
  | 3 => ⟨S8, .f32⟩
  | 4 => ⟨S1x8x1x1, .f32⟩
  | 5 => ⟨S1x8, .f32⟩
  | 6 => ⟨S8, .f32⟩
  | 7 => ⟨S1x8x1x1, .f32⟩
  | 8 => ⟨S1x8x1x1, .f32⟩
  | 9 => ⟨S2x1x2048x2048, .f32⟩
  | 10 => ⟨S2x8x2048x2048, .f32⟩
  | 11 => ⟨S2x8x2048x2048, .f32⟩
  | 12 => ⟨S2x8x2048x2048, .f32⟩
  | 13 => ⟨S2x8x2048x2048, .f32⟩
  | 14 => ⟨S2x8x2048x2048, .f32⟩
  | 15 => ⟨S2x8x2048x2048, .f32⟩
  | 16 => ⟨S2x8x2048x2048, .f32⟩
  | _ => ⟨S2x8x2048x2048, .f32⟩

abbrev hbmTy (i : Nat) : BufTy := match i / 128 with
  | 0 => hbmTy0_0 i
  | 1 => hbmTy0_1 i
  | _ => ⟨S2x8x2048x2048, .f32⟩

abbrev bufTy : (tb : Table) → Fin (tcTables nBuf tb) → BufTy
  | .hbm, ⟨i, _⟩ => hbmTy i
  | _, _ => ⟨S2x8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩

abbrev nD : Nat := 1
abbrev τ : Topo := Topo.v7x

variable {F : FTy → Type} [FloatOps F]

class Facts₀ : Prop where
  bcast_S2x2048x3_S2x2048x1x3_0_1_3 : S2x2048x3.BroadcastsInDim S2x2048x1x3 (![0, 1, 3] : Fin 3 → Fin S2x2048x1x3.rank)
  bcast_S2x2048x3_S2x1x2048x3_0_2_3 : S2x2048x3.BroadcastsInDim S2x1x2048x3 (![0, 2, 3] : Fin 3 → Fin S2x1x2048x3.rank)
  bcast_S2x2048x1x3_S2x2048x2048x3_0_1_2_3 : S2x2048x1x3.BroadcastsInDim S2x2048x2048x3 (![0, 1, 2, 3] : Fin 4 → Fin S2x2048x2048x3.rank)
  bcast_S2x1x2048x3_S2x2048x2048x3_0_1_2_3 : S2x1x2048x3.BroadcastsInDim S2x2048x2048x3 (![0, 1, 2, 3] : Fin 4 → Fin S2x2048x2048x3.rank)
  reducesTo_S2x2048x2048x3_S2x2048x2048_d3 : S2x2048x2048x3.ReducesTo [3] S2x2048x2048
  h_S_ : 0 < S_.numel
  bcast_S2x2048x1_S2x2048x1x1_0_1_3 : S2x2048x1.BroadcastsInDim S2x2048x1x1 (![0, 1, 3] : Fin 3 → Fin S2x2048x1x1.rank)
  bcast_S2x2048x1_S2x1x2048x1_0_2_3 : S2x2048x1.BroadcastsInDim S2x1x2048x1 (![0, 2, 3] : Fin 3 → Fin S2x1x2048x1.rank)
  bcast_S2x2048x1x1_S2x2048x2048x1_0_1_2_3 : S2x2048x1x1.BroadcastsInDim S2x2048x2048x1 (![0, 1, 2, 3] : Fin 4 → Fin S2x2048x2048x1.rank)
  bcast_S2x1x2048x1_S2x2048x2048x1_0_1_2_3 : S2x1x2048x1.BroadcastsInDim S2x2048x2048x1 (![0, 1, 2, 3] : Fin 4 → Fin S2x2048x2048x1.rank)
  reducesTo_S2x2048x2048x1_S2x2048x2048_d3 : S2x2048x2048x1.ReducesTo [3] S2x2048x2048
  slices_S4x8_S1x8_0_0 : S4x8.Slices ![0, 0] S1x8
  shapeCasts_S1x8_S8 : S1x8.ShapeCasts S8
  bcast_S8_S1x8x1x1_1 : S8.BroadcastsInDim S1x8x1x1 (![1] : Fin 1 → Fin S1x8x1x1.rank)
  bcast_S2x2048x2048_S2x1x2048x2048_0_2_3 : S2x2048x2048.BroadcastsInDim S2x1x2048x2048 (![0, 2, 3] : Fin 3 → Fin S2x1x2048x2048.rank)
  bcast_S1x8x1x1_S2x8x2048x2048_0_1_2_3 : S1x8x1x1.BroadcastsInDim S2x8x2048x2048 (![0, 1, 2, 3] : Fin 4 → Fin S2x8x2048x2048.rank)
  bcast_S2x1x2048x2048_S2x8x2048x2048_0_1_2_3 : S2x1x2048x2048.BroadcastsInDim S2x8x2048x2048 (![0, 1, 2, 3] : Fin 4 → Fin S2x8x2048x2048.rank)
  slices_S4x8_S1x8_1_0 : S4x8.Slices ![1, 0] S1x8
  slices_S4x8_S1x8_2_0 : S4x8.Slices ![2, 0] S1x8
  slices_S4x8_S1x8_3_0 : S4x8.Slices ![3, 0] S1x8

variable [Facts₀]

class Facts : Prop extends Facts₀ where

variable [Facts]
-- ==== Proof.Spec.lean ====
/-
  The function both programs compute, as mathematics over the extended reals.

  For a batch b, a head h, a query position q and a key position k the result is

      score[b,h,q,k] + Σ_{r<4} sα[r,h] · exp(−sβ[r,h] · ‖qs_s[b,q,:] − ks_s[b,k,:]‖²)
                     + Σ_{r<4} tα[r,h] · exp(−tβ[r,h] · (qs_t[b,q,0] − ks_t[b,k,0])²)

  with the squared distance in the three-dimensional feature space written out coordinate by coordinate.
  Addition on the extended reals is a commutative monoid, so the order and the grouping in which the eight
  radial-basis terms (and the three squares) are accumulated does not matter, a leading zero summand
  disappears, and 0 − x is −x: these are the only laws used, and none of them needs finiteness.
-/
import Idealize.ShloMosaic.PureOps.Ideal
import Idealize.ShloMosaic.Lib.ValueIdx

noncomputable section

namespace Cert.RbfBias

open Idealize.ShloMosaic Idealize.ShloMosaic.ValueIdx

/-- Squared Euclidean distance of two points with three coordinates. -/
def sqDist3 (u v : Fin 3 → EReal) : EReal :=
  (u 0 - v 0) * (u 0 - v 0) + (u 1 - v 1) * (u 1 - v 1) + (u 2 - v 2) * (u 2 - v 2)

/-- Squared distance of two points with one coordinate. -/
def sqDist1 (u v : EReal) : EReal := (u - v) * (u - v)

/-- One radial-basis term: amplitude times the exponential of minus the rate times the squared distance. -/
def rbf (a b d : EReal) : EReal := a * Ideal.exp ((-b) * d)

/-- The score plus the four terms over the three-coordinate distance plus the four over the one-coordinate
    distance, for one (batch, head, query, key). -/
def biased (s : EReal) (u v : Fin 3 → EReal) (ut vt : EReal) (sa sb ta tb : Fin 4 → EReal) : EReal :=
  s + (rbf (sa 0) (sb 0) (sqDist3 u v) + rbf (sa 1) (sb 1) (sqDist3 u v) + rbf (sa 2) (sb 2) (sqDist3 u v)
        + rbf (sa 3) (sb 3) (sqDist3 u v)
        + rbf (ta 0) (tb 0) (sqDist1 ut vt) + rbf (ta 1) (tb 1) (sqDist1 ut vt) + rbf (ta 2) (tb 2) (sqDist1 ut vt)
        + rbf (ta 3) (tb 3) (sqDist1 ut vt))

/-- Accumulating the bias from zero and adding it to the score last, each rate negated as 0 − β and the
    squared distance accumulated from zero: the same number. -/
theorem biased_of_bias_first (s : EReal) (u v : Fin 3 → EReal) (ut vt : EReal) (sa sb ta tb : Fin 4 → EReal) :
    s + ((((((((0
      + sa 0 * Ideal.exp ((0 - sb 0) * (((0 + (u 0 - v 0) * (u 0 - v 0)) + (u 1 - v 1) * (u 1 - v 1)) + (u 2 - v 2) * (u 2 - v 2))))
      + sa 1 * Ideal.exp ((0 - sb 1) * (((0 + (u 0 - v 0) * (u 0 - v 0)) + (u 1 - v 1) * (u 1 - v 1)) + (u 2 - v 2) * (u 2 - v 2))))
      + sa 2 * Ideal.exp ((0 - sb 2) * (((0 + (u 0 - v 0) * (u 0 - v 0)) + (u 1 - v 1) * (u 1 - v 1)) + (u 2 - v 2) * (u 2 - v 2))))
      + sa 3 * Ideal.exp ((0 - sb 3) * (((0 + (u 0 - v 0) * (u 0 - v 0)) + (u 1 - v 1) * (u 1 - v 1)) + (u 2 - v 2) * (u 2 - v 2))))
      + ta 0 * Ideal.exp ((0 - tb 0) * ((ut - vt) * (ut - vt))))
      + ta 1 * Ideal.exp ((0 - tb 1) * ((ut - vt) * (ut - vt))))
      + ta 2 * Ideal.exp ((0 - tb 2) * ((ut - vt) * (ut - vt))))
      + ta 3 * Ideal.exp ((0 - tb 3) * ((ut - vt) * (ut - vt))))
    = biased s u v ut vt sa sb ta tb := by
  simp only [biased, rbf, sqDist3, sqDist1, zero_add, zero_sub]

/-- The same with the zero the accumulations start from given as any number equal to zero (a program spells it
    as a constant's bit pattern). -/
theorem biased_of_bias_first_from (z : EReal) (hz : z = 0) (s : EReal) (u v : Fin 3 → EReal) (ut vt : EReal)
    (sa sb ta tb : Fin 4 → EReal) :
    s + ((((((((z
      + sa 0 * Ideal.exp ((z - sb 0) * (((z + (u 0 - v 0) * (u 0 - v 0)) + (u 1 - v 1) * (u 1 - v 1)) + (u 2 - v 2) * (u 2 - v 2))))
      + sa 1 * Ideal.exp ((z - sb 1) * (((z + (u 0 - v 0) * (u 0 - v 0)) + (u 1 - v 1) * (u 1 - v 1)) + (u 2 - v 2) * (u 2 - v 2))))
      + sa 2 * Ideal.exp ((z - sb 2) * (((z + (u 0 - v 0) * (u 0 - v 0)) + (u 1 - v 1) * (u 1 - v 1)) + (u 2 - v 2) * (u 2 - v 2))))
      + sa 3 * Ideal.exp ((z - sb 3) * (((z + (u 0 - v 0) * (u 0 - v 0)) + (u 1 - v 1) * (u 1 - v 1)) + (u 2 - v 2) * (u 2 - v 2))))
      + ta 0 * Ideal.exp ((z - tb 0) * ((ut - vt) * (ut - vt))))
      + ta 1 * Ideal.exp ((z - tb 1) * ((ut - vt) * (ut - vt))))
      + ta 2 * Ideal.exp ((z - tb 2) * ((ut - vt) * (ut - vt))))
      + ta 3 * Ideal.exp ((z - tb 3) * ((ut - vt) * (ut - vt))))
    = biased s u v ut vt sa sb ta tb := by
  subst hz; exact biased_of_bias_first s u v ut vt sa sb ta tb

/-- Adding the terms to the score one after the other, each squared distance a sum over the feature
    coordinates started from zero: the same number. -/
theorem biased_of_score_first (s : EReal) (u v : Fin 3 → EReal) (ut vt : Fin 1 → EReal) (sa sb ta tb : Fin 4 → EReal) :
    ((((((((s
      + sa 0 * Ideal.exp ((-(sb 0)) * (0 + ∑ e : Fin 3, (u e - v e) * (u e - v e))))
      + sa 1 * Ideal.exp ((-(sb 1)) * (0 + ∑ e : Fin 3, (u e - v e) * (u e - v e))))
      + sa 2 * Ideal.exp ((-(sb 2)) * (0 + ∑ e : Fin 3, (u e - v e) * (u e - v e))))
      + sa 3 * Ideal.exp ((-(sb 3)) * (0 + ∑ e : Fin 3, (u e - v e) * (u e - v e))))
      + ta 0 * Ideal.exp ((-(tb 0)) * (0 + ∑ e : Fin 1, (ut e - vt e) * (ut e - vt e))))
      + ta 1 * Ideal.exp ((-(tb 1)) * (0 + ∑ e : Fin 1, (ut e - vt e) * (ut e - vt e))))
      + ta 2 * Ideal.exp ((-(tb 2)) * (0 + ∑ e : Fin 1, (ut e - vt e) * (ut e - vt e))))
      + ta 3 * Ideal.exp ((-(tb 3)) * (0 + ∑ e : Fin 1, (ut e - vt e) * (ut e - vt e))))
    = biased s u v (ut 0) (vt 0) sa sb ta tb := by
  simp only [biased, rbf, sqDist3, sqDist1, Fin.sum_univ_three, Fin.sum_univ_one, zero_add, add_assoc]

/-! ## The result array -/

/-- The whole result, index by index, as a function of the nine argument arrays: entry (b, h, q, k) pairs
    query row (b, q) with key row (b, k) of the feature arrays and column h of the four small tables. -/
def result (score : FVec Ideal ⟨4, ![2, 8, 2048, 2048]⟩ .f32)
    (qs ks : FVec Ideal ⟨3, ![2, 2048, 3]⟩ .f32) (qt kt : FVec Ideal ⟨3, ![2, 2048, 1]⟩ .f32)
    (sa sb ta tb : FVec Ideal ⟨2, ![4, 8]⟩ .f32) : FVec Ideal ⟨4, ![2, 8, 2048, 2048]⟩ .f32 := fun i =>
  biased (score i) (fun e => qs (ix3 (i 0) (i 2) e)) (fun e => ks (ix3 (i 0) (i 3) e))
    (qt (ix3 (i 0) (i 2) 0)) (kt (ix3 (i 0) (i 3) 0))
    (fun r => sa (ix2 r (i 1))) (fun r => sb (ix2 r (i 1))) (fun r => ta (ix2 r (i 1))) (fun r => tb (ix2 r (i 1)))

end Cert.RbfBias

end
-- ==== Proof.KernelBlock.lean ====
/-
  What the kernel writes, block by block, and the whole result array.

  The generated value text names the block a grid point leaves as one expression of the values the body loads,
  each read where the block index puts it: the score at the index itself, a feature row at the block's query or
  key coordinate, a table entry at (row, head). A table row is loaded through a one-row window of the table,
  whose index is the row's offset plus the position in the row; the other blocks are loaded whole. Written over
  blocks given by their coordinates, that expression is, by computation alone, the tree "bias first" of the
  specification, so the block is the specified function of the blocks' entries.

  Grid point (b, qi, ki) holds batch b, query rows 256·qi …, key rows 512·ki …: the score and result windows
  move with (b, ·, qi, ki), the query features with (b, qi, ·), the key features with (b, ki, ·), the tables
  stay. So the entry a block reads is the array entry the specification reads, the 64 blocks cover the result
  array, and the array after the run is the specified function of the argument arrays.
-/
import proofs.«128559_j17781164605640_1_alg».proof.Proof.KernelBlockValue
import proofs.«128559_j17781164605640_1_alg».proof.Proof.Spec
import Idealize.ShloMosaic.PureOps.Ideal.Laws

noncomputable section

namespace Cert.RbfBias.Kernel

open Cert.KernelIdeal Cert.KernelIdeal.Gen Idealize.ShloMosaic Idealize.ShloMosaic.TcCoe Idealize.ShloMosaic.ValueIdx
open Idealize.SL.Sem
open Idealize.ShloMosaic.Pipeline (Dat)

/-! ## Loads -/

theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- Row 0 of a table, loaded through its one-row window: position p of the row is entry (0, p). -/
theorem ld_row0 (X : Vec Ideal S4x8 .f32) : View.ld X r0_4 = fun u : S1x8.Idx => X (ix2 0 (u 1)) :=
  funext fun u => congrArg X (funext fun a => Fin.ext (by
    have h0 : (u 0).val < 1 := (u 0).isLt
    match a with
    | ⟨0, _⟩ => show 0 + 1 * (u 0).val = 0; omega
    | ⟨1, _⟩ => show 0 + 1 * (u 1).val = (u 1).val; omega))

/-- Row 1. -/
theorem ld_row1 (X : Vec Ideal S4x8 .f32) : View.ld X r0_5 = fun u : S1x8.Idx => X (ix2 1 (u 1)) :=
  funext fun u => congrArg X (funext fun a => Fin.ext (by
    have h0 : (u 0).val < 1 := (u 0).isLt
    match a with
    | ⟨0, _⟩ => show 1 + 1 * (u 0).val = 1; omega
    | ⟨1, _⟩ => show 0 + 1 * (u 1).val = (u 1).val; omega))

/-- Row 2. -/
theorem ld_row2 (X : Vec Ideal S4x8 .f32) : View.ld X r0_6 = fun u : S1x8.Idx => X (ix2 2 (u 1)) :=
  funext fun u => congrArg X (funext fun a => Fin.ext (by
    have h0 : (u 0).val < 1 := (u 0).isLt
    match a with
    | ⟨0, _⟩ => show 2 + 1 * (u 0).val = 2; omega
    | ⟨1, _⟩ => show 0 + 1 * (u 1).val = (u 1).val; omega))

/-- Row 3. -/
theorem ld_row3 (X : Vec Ideal S4x8 .f32) : View.ld X r0_7 = fun u : S1x8.Idx => X (ix2 3 (u 1)) :=
  funext fun u => congrArg X (funext fun a => Fin.ext (by
    have h0 : (u 0).val < 1 := (u 0).isLt
    match a with
    | ⟨0, _⟩ => show 3 + 1 * (u 0).val = 3; omega
    | ⟨1, _⟩ => show 0 + 1 * (u 1).val = (u 1).val; omega))

/-! ## One block -/

/-- The block a point leaves, for blocks given by their coordinates: entry (0, h, q, k) is the specified
    function of the score at (0, h, q, k), query feature rows q, key feature rows k and table columns h. -/
theorem block_of_coords (X0 : Fin 1 → Fin 8 → Fin 256 → Fin 512 → EReal)
    (X1 : Fin 1 → Fin 256 → Fin 3 → EReal) (X2 : Fin 1 → Fin 512 → Fin 3 → EReal)
    (X3 : Fin 1 → Fin 256 → Fin 1 → EReal) (X4 : Fin 1 → Fin 512 → Fin 1 → EReal)
    (X5 X6 X7 X8 : Fin 4 → Fin 8 → EReal) (y : S1x8x256x512.Idx) :
    out0_9 (F := Ideal) (fun z => X0 (z 0) (z 1) (z 2) (z 3)) (fun z => X1 (z 0) (z 1) (z 2)) (fun z => X2 (z 0) (z 1) (z 2))
        (fun z => X3 (z 0) (z 1) (z 2)) (fun z => X4 (z 0) (z 1) (z 2))
        (fun z => X5 (z 0) (z 1)) (fun z => X6 (z 0) (z 1)) (fun z => X7 (z 0) (z 1)) (fun z => X8 (z 0) (z 1)) y
      = biased (X0 0 (y 1) (y 2) (y 3)) (fun e => X1 0 (y 2) e) (fun e => X2 0 (y 3) e) (X3 0 (y 2) 0) (X4 0 (y 3) 0)
          (fun r => X5 r (y 1)) (fun r => X6 r (y 1)) (fun r => X7 r (y 1)) (fun r => X8 r (y 1)) := by
  unfold out0_9
  simp only [ld_row0, ld_row1, ld_row2, ld_row3, View.ld_unit_zero (S := S1x256x3) zeros3,
    View.ld_unit_zero (S := S1x512x3) zeros3, View.ld_unit_zero (S := S1x256x1) zeros3,
    View.ld_unit_zero (S := S1x512x1) zeros3, View.ld_unit_zero (S := S1x8x256x512) zeros4]
  rw [Cert.KernelIdeal.ValueP.canon9_eq]
  exact biased_of_bias_first_from _ Ideal.ofBits_zero_f32 (X0 0 (y 1) (y 2) (y 3)) (fun e => X1 0 (y 2) e) (fun e => X2 0 (y 3) e)
    (X3 0 (y 2) 0) (X4 0 (y 3) 0) (fun r => X5 r (y 1)) (fun r => X6 r (y 1)) (fun r => X7 r (y 1)) (fun r => X8 r (y 1))

/-- The same for any blocks: an index is its coordinates. -/
theorem block_apply (x0 : Vec Ideal S1x8x256x512 .f32) (x1 : Vec Ideal S1x256x3 .f32) (x2 : Vec Ideal S1x512x3 .f32)
    (x3 : Vec Ideal S1x256x1 .f32) (x4 : Vec Ideal S1x512x1 .f32) (x5 x6 x7 x8 : Vec Ideal S4x8 .f32)
    (y : S1x8x256x512.Idx) :
    out0_9 x0 x1 x2 x3 x4 x5 x6 x7 x8 y
      = biased (x0 (ix4 0 (y 1) (y 2) (y 3))) (fun e => x1 (ix3 0 (y 2) e)) (fun e => x2 (ix3 0 (y 3) e))
          (x3 (ix3 0 (y 2) 0)) (x4 (ix3 0 (y 3) 0))
          (fun r => x5 (ix2 r (y 1))) (fun r => x6 (ix2 r (y 1))) (fun r => x7 (ix2 r (y 1))) (fun r => x8 (ix2 r (y 1))) := by
  have e0 : (fun z => x0 (ix4 (z 0) (z 1) (z 2) (z 3))) = x0 := funext fun z => congrArg x0 (eq_ix4 z).symm
  have e1 : (fun z => x1 (ix3 (z 0) (z 1) (z 2))) = x1 := funext fun z => congrArg x1 (eq_ix3 z).symm
  have e2 : (fun z => x2 (ix3 (z 0) (z 1) (z 2))) = x2 := funext fun z => congrArg x2 (eq_ix3 z).symm
  have e3 : (fun z => x3 (ix3 (z 0) (z 1) (z 2))) = x3 := funext fun z => congrArg x3 (eq_ix3 z).symm
  have e4 : (fun z => x4 (ix3 (z 0) (z 1) (z 2))) = x4 := funext fun z => congrArg x4 (eq_ix3 z).symm
  have e5 : (fun z => x5 (ix2 (z 0) (z 1))) = x5 := funext fun z => congrArg x5 (eq_ix2 z).symm
  have e6 : (fun z => x6 (ix2 (z 0) (z 1))) = x6 := funext fun z => congrArg x6 (eq_ix2 z).symm
  have e7 : (fun z => x7 (ix2 (z 0) (z 1))) = x7 := funext fun z => congrArg x7 (eq_ix2 z).symm
  have e8 : (fun z => x8 (ix2 (z 0) (z 1))) = x8 := funext fun z => congrArg x8 (eq_ix2 z).symm
  have h := block_of_coords (fun a b c d => x0 (ix4 a b c d)) (fun a b c => x1 (ix3 a b c)) (fun a b c => x2 (ix3 a b c))
    (fun a b c => x3 (ix3 a b c)) (fun a b c => x4 (ix3 a b c))
    (fun a b => x5 (ix2 a b)) (fun a b => x6 (ix2 a b)) (fun a b => x7 (ix2 a b)) (fun a b => x8 (ix2 a b)) y
  simp only [e0, e1, e2, e3, e4, e5, e6, e7, e8] at h
  exact h

end Cert.RbfBias.Kernel

end
-- ==== Proof.KernelResult.lean ====
/-
  From blocks to the array: the result array after the run.

  Grid point t = (b, qi, ki). The score window and the result window are at block (b, 0, qi, ki) of their
  arrays, the query-feature windows at block (b, qi, 0), the key-feature windows at block (b, ki, 0), the table
  windows at block (0, 0); a block's entry at local coordinates z is the array's entry at block index times
  block size plus z, axis by axis. So the entries a block reads are the array entries the specification reads
  at the result index the block entry is flushed to; the 64 result blocks cover the result array (the block of
  (b, h, q, k) is the one of point (b, q / 256, k / 512)); hence the array after the run is the specified
  function of the argument arrays.
-/
import proofs.«128559_j17781164605640_1_alg».proof.Proof.KernelBlock

noncomputable section

namespace Cert.RbfBias.Kernel

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-- How the ten windows move over the grid, decided over its 64 points: the score window with the result
    window; the query features with the result's batch and query blocks, the key features with its batch and key
    blocks, both at feature block 0; the tables at block (0, 0); the result's head block is 0 and its batch,
    query and key blocks range over 2, 8 and 4. -/
theorem windows_move : ∀ t : Fin cfg0.N,
    win0_0.index t (0 : Fin 4) = win0_9.index t (0 : Fin 4) ∧ win0_0.index t (1 : Fin 4) = win0_9.index t (1 : Fin 4)
    ∧ win0_0.index t (2 : Fin 4) = win0_9.index t (2 : Fin 4) ∧ win0_0.index t (3 : Fin 4) = win0_9.index t (3 : Fin 4)
    ∧ win0_1.index t (0 : Fin 3) = win0_9.index t (0 : Fin 4) ∧ win0_1.index t (1 : Fin 3) = win0_9.index t (2 : Fin 4)
    ∧ win0_1.index t (2 : Fin 3) = 0
    ∧ win0_2.index t (0 : Fin 3) = win0_9.index t (0 : Fin 4) ∧ win0_2.index t (1 : Fin 3) = win0_9.index t (3 : Fin 4)
    ∧ win0_2.index t (2 : Fin 3) = 0
    ∧ win0_3.index t (0 : Fin 3) = win0_9.index t (0 : Fin 4) ∧ win0_3.index t (1 : Fin 3) = win0_9.index t (2 : Fin 4)
    ∧ win0_3.index t (2 : Fin 3) = 0
    ∧ win0_4.index t (0 : Fin 3) = win0_9.index t (0 : Fin 4) ∧ win0_4.index t (1 : Fin 3) = win0_9.index t (3 : Fin 4)
    ∧ win0_4.index t (2 : Fin 3) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (1 : Fin 4) = 0
    ∧ win0_9.index t (0 : Fin 4) ≤ 1 ∧ win0_9.index t (2 : Fin 4) ≤ 7 ∧ win0_9.index t (3 : Fin 4) ≤ 3 :=
  (by decide +kernel : ∀ t : Fin grid0.N, _)

/-- Every (batch, query block, key block) is some grid point's result block. -/
theorem every_block_visited : ∀ (b : Fin 2) (qi : Fin 8) (ki : Fin 4),
    ∃ t : Fin cfg0.N, win0_9.index t = ![b.val, 0, qi.val, ki.val] :=
  (by decide +kernel : ∀ (b : Fin 2) (qi : Fin 8) (ki : Fin 4), ∃ t : Fin grid0.N, win0_9.index t = ![b.val, 0, qi.val, ki.val])

/-- What point t writes back is block t of the specified function of the argument arrays. -/
theorem block_written (c : Dev nD) (t : Fin cfg0.N) :
    (dats m 0 c).flushed 9 t = ((cfg0.win 9).blk t).view.read (Elt Ideal)
      (result (V m c main_arg0) (V m c main_arg1) (V m c main_arg2) (V m c main_arg3) (V m c main_arg4)
        (V m c main_arg5) (V m c main_arg6) (V m c main_arg7) (V m c main_arg8)) := by
  rw [Cert.KernelIdeal.ValueP.flushed9]
  obtain ⟨a0, a1, a2, a3, b0, b1, b2, c0, c1, c2, d0, d1, d2, e0, e1, e2, f0, f1, g0, g1, h0, h1, k0, k1, n1, r0, r2, r3⟩ :=
    windows_move t
  funext j
  have hj0 : (j 0).val < 1 := (j 0).isLt
  show out0_9 (iblk m c 0 t) (iblk m c 1 t) (iblk m c 2 t) (iblk m c 3 t) (iblk m c 4 t) (iblk m c 5 t) (iblk m c 6 t)
      (iblk m c 7 t) (iblk m c 8 t) j
    = result (V m c main_arg0) (V m c main_arg1) (V m c main_arg2) (V m c main_arg3) (V m c main_arg4)
        (V m c main_arg5) (V m c main_arg6) (V m c main_arg7) (V m c main_arg8) (((cfg0.win 9).blk t).view.emb j)
  rw [block_apply]
  unfold result
  congr 1
  · -- the score entry
    show V m c main_arg0 (((cfg0.win 0).blk t).view.emb (ix4 0 (j 1) (j 2) (j 3))) = V m c main_arg0 (((cfg0.win 9).blk t).view.emb j)
    refine congrArg _ (funext fun a => Fin.ext ?_)
    match a with
    | ⟨0, _⟩ => show win0_0.index t (0 : Fin 4) * 1 + 1 * 0 = win0_9.index t (0 : Fin 4) * 1 + 1 * (j 0).val; omega
    | ⟨1, _⟩ => show win0_0.index t (1 : Fin 4) * 8 + 1 * (j 1).val = win0_9.index t (1 : Fin 4) * 8 + 1 * (j 1).val; omega
    | ⟨2, _⟩ => show win0_0.index t (2 : Fin 4) * 256 + 1 * (j 2).val = win0_9.index t (2 : Fin 4) * 256 + 1 * (j 2).val; omega
    | ⟨3, _⟩ => show win0_0.index t (3 : Fin 4) * 512 + 1 * (j 3).val = win0_9.index t (3 : Fin 4) * 512 + 1 * (j 3).val; omega
  · -- the query's three s-features
    funext e
    show V m c main_arg1 (((cfg0.win 1).blk t).view.emb (ix3 0 (j 2) e))
      = V m c main_arg1 (ix3 ((((cfg0.win 9).blk t).view.emb j) 0) ((((cfg0.win 9).blk t).view.emb j) 2) e)
    refine congrArg _ (funext fun a => Fin.ext ?_)
    match a with
    | ⟨0, _⟩ => show win0_1.index t (0 : Fin 3) * 1 + 1 * 0 = win0_9.index t (0 : Fin 4) * 1 + 1 * (j 0).val; omega
    | ⟨1, _⟩ => show win0_1.index t (1 : Fin 3) * 256 + 1 * (j 2).val = win0_9.index t (2 : Fin 4) * 256 + 1 * (j 2).val; omega
    | ⟨2, _⟩ => show win0_1.index t (2 : Fin 3) * 3 + 1 * e.val = e.val; omega
  · -- the key's three s-features
    funext e
    show V m c main_arg2 (((cfg0.win 2).blk t).view.emb (ix3 0 (j 3) e))
      = V m c main_arg2 (ix3 ((((cfg0.win 9).blk t).view.emb j) 0) ((((cfg0.win 9).blk t).view.emb j) 3) e)
    refine congrArg _ (funext fun a => Fin.ext ?_)
    match a with
    | ⟨0, _⟩ => show win0_2.index t (0 : Fin 3) * 1 + 1 * 0 = win0_9.index t (0 : Fin 4) * 1 + 1 * (j 0).val; omega
    | ⟨1, _⟩ => show win0_2.index t (1 : Fin 3) * 512 + 1 * (j 3).val = win0_9.index t (3 : Fin 4) * 512 + 1 * (j 3).val; omega
    | ⟨2, _⟩ => show win0_2.index t (2 : Fin 3) * 3 + 1 * e.val = e.val; omega
  · -- the query's t-feature
    show V m c main_arg3 (((cfg0.win 3).blk t).view.emb (ix3 0 (j 2) 0))
      = V m c main_arg3 (ix3 ((((cfg0.win 9).blk t).view.emb j) 0) ((((cfg0.win 9).blk t).view.emb j) 2) 0)
    refine congrArg _ (funext fun a => Fin.ext ?_)
    match a with
    | ⟨0, _⟩ => show win0_3.index t (0 : Fin 3) * 1 + 1 * 0 = win0_9.index t (0 : Fin 4) * 1 + 1 * (j 0).val; omega
    | ⟨1, _⟩ => show win0_3.index t (1 : Fin 3) * 256 + 1 * (j 2).val = win0_9.index t (2 : Fin 4) * 256 + 1 * (j 2).val; omega
    | ⟨2, _⟩ => show win0_3.index t (2 : Fin 3) * 1 + 1 * 0 = 0; omega
  · -- the key's t-feature
    show V m c main_arg4 (((cfg0.win 4).blk t).view.emb (ix3 0 (j 3) 0))
      = V m c main_arg4 (ix3 ((((cfg0.win 9).blk t).view.emb j) 0) ((((cfg0.win 9).blk t).view.emb j) 3) 0)
    refine congrArg _ (funext fun a => Fin.ext ?_)
    match a with
    | ⟨0, _⟩ => show win0_4.index t (0 : Fin 3) * 1 + 1 * 0 = win0_9.index t (0 : Fin 4) * 1 + 1 * (j 0).val; omega
    | ⟨1, _⟩ => show win0_4.index t (1 : Fin 3) * 512 + 1 * (j 3).val = win0_9.index t (3 : Fin 4) * 512 + 1 * (j 3).val; omega
    | ⟨2, _⟩ => show win0_4.index t (2 : Fin 3) * 1 + 1 * 0 = 0; omega
  · -- column h of the s-amplitudes
    funext r
    show V m c main_arg5 (((cfg0.win 5).blk t).view.emb (ix2 r (j 1)))
      = V m c main_arg5 (ix2 r ((((cfg0.win 9).blk t).view.emb j) 1))
    refine congrArg _ (funext fun a => Fin.ext ?_)
    match a with
    | ⟨0, _⟩ => show win0_5.index t (0 : Fin 2) * 4 + 1 * r.val = r.val; omega
    | ⟨1, _⟩ => show win0_5.index t (1 : Fin 2) * 8 + 1 * (j 1).val = win0_9.index t (1 : Fin 4) * 8 + 1 * (j 1).val; omega
  · -- column h of the s-rates
    funext r
    show V m c main_arg6 (((cfg0.win 6).blk t).view.emb (ix2 r (j 1)))
      = V m c main_arg6 (ix2 r ((((cfg0.win 9).blk t).view.emb j) 1))
    refine congrArg _ (funext fun a => Fin.ext ?_)
    match a with
    | ⟨0, _⟩ => show win0_6.index t (0 : Fin 2) * 4 + 1 * r.val = r.val; omega
    | ⟨1, _⟩ => show win0_6.index t (1 : Fin 2) * 8 + 1 * (j 1).val = win0_9.index t (1 : Fin 4) * 8 + 1 * (j 1).val; omega
  · -- column h of the t-amplitudes
    funext r
    show V m c main_arg7 (((cfg0.win 7).blk t).view.emb (ix2 r (j 1)))
      = V m c main_arg7 (ix2 r ((((cfg0.win 9).blk t).view.emb j) 1))
    refine congrArg _ (funext fun a => Fin.ext ?_)
    match a with
    | ⟨0, _⟩ => show win0_7.index t (0 : Fin 2) * 4 + 1 * r.val = r.val; omega
    | ⟨1, _⟩ => show win0_7.index t (1 : Fin 2) * 8 + 1 * (j 1).val = win0_9.index t (1 : Fin 4) * 8 + 1 * (j 1).val; omega
  · -- column h of the t-rates
    funext r
    show V m c main_arg8 (((cfg0.win 8).blk t).view.emb (ix2 r (j 1)))
      = V m c main_arg8 (ix2 r ((((cfg0.win 9).blk t).view.emb j) 1))
    refine congrArg _ (funext fun a => Fin.ext ?_)
    match a with
    | ⟨0, _⟩ => show win0_8.index t (0 : Fin 2) * 4 + 1 * r.val = r.val; omega
    | ⟨1, _⟩ => show win0_8.index t (1 : Fin 2) * 8 + 1 * (j 1).val = win0_9.index t (1 : Fin 4) * 8 + 1 * (j 1).val; omega

/-- An index of the result array is in point t's block iff, axis by axis, it is within the block's range. -/
theorem mem_result_block (t : Fin cfg0.N) (i : S2x8x2048x2048.Idx) :
    i ∈ ((cfg0.win 9).blk t).view.set ↔ ∀ a : Fin 4, win0_9.index t a * S1x8x256x512.size a ≤ (i a).val
      ∧ (i a).val < win0_9.index t a * S1x8x256x512.size a + S1x8x256x512.size a := by
  show i ∈ ((View.whole main_v0).slice (win0_9.rect t)).set ↔ _
  rw [View.set_slice_whole, Rect.mem_set_unit]
  exact Iff.rfl

/-- The result blocks cover the result array: (b, h, q, k) lies in the block of point (b, q / 256, k / 512). -/
theorem blocks_cover (i : S2x8x2048x2048.Idx) :
    ∃ t : Fin cfg0.N, (cfg0.win 9).flush t = true ∧ i ∈ ((cfg0.win 9).blk t).view.set := by
  have hi0 : (i 0).val < 2 := (i 0).isLt
  have hi1 : (i 1).val < 8 := (i 1).isLt
  have hi2 : (i 2).val < 2048 := (i 2).isLt
  have hi3 : (i 3).val < 2048 := (i 3).isLt
  obtain ⟨t, ht⟩ := every_block_visited ⟨(i 0).val, hi0⟩ ⟨(i 2).val / 256, by omega⟩ ⟨(i 3).val / 512, by omega⟩
  have q0 : win0_9.index t (0 : Fin 4) = (i 0).val := congrFun ht 0
  have q1 : win0_9.index t (1 : Fin 4) = 0 := congrFun ht 1
  have q2 : win0_9.index t (2 : Fin 4) = (i 2).val / 256 := congrFun ht 2
  have q3 : win0_9.index t (3 : Fin 4) = (i 3).val / 512 := congrFun ht 3
  refine ⟨t, flush0_9 t, ?_⟩
  rw [mem_result_block]
  intro a
  match a with
  | ⟨0, _⟩ => show win0_9.index t (0 : Fin 4) * 1 ≤ (i 0).val ∧ (i 0).val < win0_9.index t (0 : Fin 4) * 1 + 1; omega
  | ⟨1, _⟩ => show win0_9.index t (1 : Fin 4) * 8 ≤ (i 1).val ∧ (i 1).val < win0_9.index t (1 : Fin 4) * 8 + 8; omega
  | ⟨2, _⟩ => show win0_9.index t (2 : Fin 4) * 256 ≤ (i 2).val ∧ (i 2).val < win0_9.index t (2 : Fin 4) * 256 + 256; omega
  | ⟨3, _⟩ => show win0_9.index t (3 : Fin 4) * 512 ≤ (i 3).val ∧ (i 3).val < win0_9.index t (3 : Fin 4) * 512 + 512; omega

/-- The result array after the run is the specified function of the argument arrays as the region finds them. -/
theorem result_array (c : Dev nD) :
    (dats m 0 c).arrAt 9 cfg0.N
      = result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) :=
  (dats m 0 c).arrAt_eq_of_cover 9 _ (fun t _ => block_written m c t) blocks_cover

/-- The kernel's run: every weakly fair execution terminates with the result array at the specified function of
    the arguments, the arguments unchanged. -/
theorem run : θ_run defs (onTc (τ := τ) (main (F := Ideal))) ⟨m, fun _ => 0, ρ⟩ fun r => ∀ c : Dev nD,
      r.2.mem ((c.tc : Thread nD τ).loc main_v0)
        = result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h c).1.trans (result_array m c), (h c).2⟩)
    (Cert.KernelIdeal.ValueP.run_blocks m ρ)

end Cert.RbfBias.Kernel

end
-- ==== Proof.RefTerms.lean ====
/-
  The reference program read at one index, stage by stage.

  Its squared distances: entry (b, q, k) of the three-coordinate one is the sum, started from zero, over the
  feature coordinate e of (qs_s[b,q,e] − ks_s[b,k,e])², and of the one-coordinate one the same sum over the
  single coordinate of the t-features. Each of its eight radial-basis terms, at (b, h, q, k), is row r, column h
  of its amplitude table times the exponential of the negated row r, column h of its rate table times the
  squared distance at (b, q, k): the slice, the reshape and the two broadcasts of a table row only move the
  index (the reshape's index is the column modulo 8, which is the column), and the head axis is broadcast over
  the distance map.
-/
import proofs.«128559_j17781164605640_1_alg».proof.Proof.Gen.ReferenceIdeal.Read
import Idealize.ShloMosaic.Lib.ValueIdx

noncomputable section

namespace Cert.RbfBias.Ref

open Cert.ReferenceIdeal Cert.ReferenceIdeal.Read Idealize.ShloMosaic Idealize.ShloMosaic.ValueIdx

variable (x1 x2 : (⟨S2x2048x3, .f32⟩ : BufTy).Contents (Elt Ideal))
  (x3 x4 : (⟨S2x2048x1, .f32⟩ : BufTy).Contents (Elt Ideal))
  (x5 x6 x7 x8 : (⟨S4x8, .f32⟩ : BufTy).Contents (Elt Ideal))

/-! ## The two squared-distance maps -/

/-- Entry (b, q, k) of the distance map over the three s-features. -/
theorem dist3_apply (j : S2x2048x2048.Idx) :
    val_main_v6 (F := Ideal) x1 x2 j
      = 0 + ∑ e : Fin 3, (x1 (ix3 (j 0) (j 1) e) - x2 (ix3 (j 0) (j 2) e)) * (x1 (ix3 (j 0) (j 1) e) - x2 (ix3 (j 0) (j 2) e)) := by
  have hq : ∀ e : Fin 3, idx_main_v0 (idx_main_v2 (idx_main_v6 j e)) = ix3 (j 0) (j 1) e := fun e =>
    funext fun a => Fin.ext (by match a with | ⟨0, _⟩ => rfl | ⟨1, _⟩ => rfl | ⟨2, _⟩ => rfl)
  have hk : ∀ e : Fin 3, idx_main_v1 (idx_main_v3 (idx_main_v6 j e)) = ix3 (j 0) (j 2) e := fun e =>
    funext fun a => Fin.ext (by match a with | ⟨0, _⟩ => rfl | ⟨1, _⟩ => rfl | ⟨2, _⟩ => rfl)
  rw [val_main_v6_apply]
  refine congrArg₂ (· + ·) Ideal.ofBits_zero_f32 (Finset.sum_congr rfl fun e _ => ?_)
  rw [val_main_v5_apply, val_main_v4_apply, val_main_v2_apply, val_main_v0_apply, val_main_v3_apply, val_main_v1_apply,
    hq e, hk e]
  rfl

/-- Entry (b, q, k) of the distance map over the one t-feature. -/
theorem dist1_apply (j : S2x2048x2048.Idx) :
    val_main_v13 (F := Ideal) x3 x4 j
      = 0 + ∑ e : Fin 1, (x3 (ix3 (j 0) (j 1) e) - x4 (ix3 (j 0) (j 2) e)) * (x3 (ix3 (j 0) (j 1) e) - x4 (ix3 (j 0) (j 2) e)) := by
  have hq : ∀ e : Fin 1, idx_main_v7 (idx_main_v9 (idx_main_v13 j e)) = ix3 (j 0) (j 1) e := fun e => by
    obtain rfl : e = 0 := Subsingleton.elim e 0
    exact funext fun a => Fin.ext (by match a with | ⟨0, _⟩ => rfl | ⟨1, _⟩ => rfl | ⟨2, _⟩ => rfl)
  have hk : ∀ e : Fin 1, idx_main_v8 (idx_main_v10 (idx_main_v13 j e)) = ix3 (j 0) (j 2) e := fun e => by
    obtain rfl : e = 0 := Subsingleton.elim e 0
    exact funext fun a => Fin.ext (by match a with | ⟨0, _⟩ => rfl | ⟨1, _⟩ => rfl | ⟨2, _⟩ => rfl)
  rw [val_main_v13_apply]
  refine congrArg₂ (· + ·) Ideal.ofBits_zero_f32 (Finset.sum_congr rfl fun e _ => ?_)
  rw [val_main_v12_apply, val_main_v11_apply, val_main_v9_apply, val_main_v7_apply, val_main_v10_apply, val_main_v8_apply,
    hq e, hk e]
  rfl

/-! ## The four terms over the s-distance: table rows 0, 1, 2, 3 of `s_alpha` and `s_beta` -/

theorem sTerm0_apply (i : S2x8x2048x2048.Idx) :
    val_main_v27 (F := Ideal) x1 x2 x5 x6 i
      = x5 (ix2 0 (i 1)) * Ideal.exp ((-(x6 (ix2 0 (i 1)))) * val_main_v6 (F := Ideal) x1 x2 (ix3 (i 0) (i 2) (i 3))) := by
  have ha : idx_main_v14 (idx_main_v15 (idx_main_v16 (idx_main_v26 i))) = ix2 0 (i 1) :=
    funext fun a => Fin.ext (by match a with | ⟨0, _⟩ => rfl | ⟨1, _⟩ => exact Nat.mod_eq_of_lt (i 1).isLt)
  have hb : idx_main_v17 (idx_main_v18 (idx_main_v19 (idx_main_v22 i))) = ix2 0 (i 1) :=
    funext fun a => Fin.ext (by match a with | ⟨0, _⟩ => rfl | ⟨1, _⟩ => exact Nat.mod_eq_of_lt (i 1).isLt)
  have hd : idx_main_v21 (idx_main_v23 i) = ix3 (i 0) (i 2) (i 3) :=
    funext fun a => Fin.ext (by match a with | ⟨0, _⟩ => rfl | ⟨1, _⟩ => rfl | ⟨2, _⟩ => rfl)
  rw [val_main_v27_apply, val_main_v26_apply, val_main_v16_apply, val_main_v15_apply, val_main_v14_apply, ha,
    val_main_v25_apply, val_main_v24_apply, val_main_v22_apply, val_main_v20_apply, val_main_v19_apply,
    val_main_v18_apply, val_main_v17_apply, hb, val_main_v23_apply, val_main_v21_apply, hd]
  rfl

theorem sTerm1_apply (i : S2x8x2048x2048.Idx) :
    val_main_v42 (F := Ideal) x1 x2 x5 x6 i
      = x5 (ix2 1 (i 1)) * Ideal.exp ((-(x6 (ix2 1 (i 1)))) * val_main_v6 (F := Ideal) x1 x2 (ix3 (i 0) (i 2) (i 3))) := by
  have ha : idx_main_v29 (idx_main_v30 (idx_main_v31 (idx_main_v41 i))) = ix2 1 (i 1) :=
    funext fun a => Fin.ext (by match a with | ⟨0, _⟩ => rfl | ⟨1, _⟩ => exact Nat.mod_eq_of_lt (i 1).isLt)
  have hb : idx_main_v32 (idx_main_v33 (idx_main_v34 (idx_main_v37 i))) = ix2 1 (i 1) :=
    funext fun a => Fin.ext (by match a with | ⟨0, _⟩ => rfl | ⟨1, _⟩ => exact Nat.mod_eq_of_lt (i 1).isLt)
  have hd : idx_main_v36 (idx_main_v38 i) = ix3 (i 0) (i 2) (i 3) :=
    funext fun a => Fin.ext (by match a with | ⟨0, _⟩ => rfl | ⟨1, _⟩ => rfl | ⟨2, _⟩ => rfl)
  rw [val_main_v42_apply, val_main_v41_apply, val_main_v31_apply, val_main_v30_apply, val_main_v29_apply, ha,
    val_main_v40_apply, val_main_v39_apply, val_main_v37_apply, val_main_v35_apply, val_main_v34_apply,
    val_main_v33_apply, val_main_v32_apply, hb, val_main_v38_apply, val_main_v36_apply, hd]
  rfl

theorem sTerm2_apply (i : S2x8x2048x2048.Idx) :
    val_main_v57 (F := Ideal) x1 x2 x5 x6 i
      = x5 (ix2 2 (i 1)) * Ideal.exp ((-(x6 (ix2 2 (i 1)))) * val_main_v6 (F := Ideal) x1 x2 (ix3 (i 0) (i 2) (i 3))) := by
  have ha : idx_main_v44 (idx_main_v45 (idx_main_v46 (idx_main_v56 i))) = ix2 2 (i 1) :=
    funext fun a => Fin.ext (by match a with | ⟨0, _⟩ => rfl | ⟨1, _⟩ => exact Nat.mod_eq_of_lt (i 1).isLt)
  have hb : idx_main_v47 (idx_main_v48 (idx_main_v49 (idx_main_v52 i))) = ix2 2 (i 1) :=
    funext fun a => Fin.ext (by match a with | ⟨0, _⟩ => rfl | ⟨1, _⟩ => exact Nat.mod_eq_of_lt (i 1).isLt)
  have hd : idx_main_v51 (idx_main_v53 i) = ix3 (i 0) (i 2) (i 3) :=
    funext fun a => Fin.ext (by match a with | ⟨0, _⟩ => rfl | ⟨1, _⟩ => rfl | ⟨2, _⟩ => rfl)
  rw [val_main_v57_apply, val_main_v56_apply, val_main_v46_apply, val_main_v45_apply, val_main_v44_apply, ha,
    val_main_v55_apply, val_main_v54_apply, val_main_v52_apply, val_main_v50_apply, val_main_v49_apply,
    val_main_v48_apply, val_main_v47_apply, hb, val_main_v53_apply, val_main_v51_apply, hd]
  rfl

theorem sTerm3_apply (i : S2x8x2048x2048.Idx) :
    val_main_v72 (F := Ideal) x1 x2 x5 x6 i
      = x5 (ix2 3 (i 1)) * Ideal.exp ((-(x6 (ix2 3 (i 1)))) * val_main_v6 (F := Ideal) x1 x2 (ix3 (i 0) (i 2) (i 3))) := by
  have ha : idx_main_v59 (idx_main_v60 (idx_main_v61 (idx_main_v71 i))) = ix2 3 (i 1) :=
    funext fun a => Fin.ext (by match a with | ⟨0, _⟩ => rfl | ⟨1, _⟩ => exact Nat.mod_eq_of_lt (i 1).isLt)
  have hb : idx_main_v62 (idx_main_v63 (idx_main_v64 (idx_main_v67 i))) = ix2 3 (i 1) :=
    funext fun a => Fin.ext (by match a with | ⟨0, _⟩ => rfl | ⟨1, _⟩ => exact Nat.mod_eq_of_lt (i 1).isLt)
  have hd : idx_main_v66 (idx_main_v68 i) = ix3 (i 0) (i 2) (i 3) :=
    funext fun a => Fin.ext (by match a with | ⟨0, _⟩ => rfl | ⟨1, _⟩ => rfl | ⟨2, _⟩ => rfl)
  rw [val_main_v72_apply, val_main_v71_apply, val_main_v61_apply, val_main_v60_apply, val_main_v59_apply, ha,
    val_main_v70_apply, val_main_v69_apply, val_main_v67_apply, val_main_v65_apply, val_main_v64_apply,
    val_main_v63_apply, val_main_v62_apply, hb, val_main_v68_apply, val_main_v66_apply, hd]
  rfl

/-! ## The four terms over the t-distance: table rows 0, 1, 2, 3 of `t_alpha` and `t_beta` -/

theorem tTerm0_apply (i : S2x8x2048x2048.Idx) :
    val_main_v87 (F := Ideal) x3 x4 x7 x8 i
      = x7 (ix2 0 (i 1)) * Ideal.exp ((-(x8 (ix2 0 (i 1)))) * val_main_v13 (F := Ideal) x3 x4 (ix3 (i 0) (i 2) (i 3))) := by
  have ha : idx_main_v74 (idx_main_v75 (idx_main_v76 (idx_main_v86 i))) = ix2 0 (i 1) :=
    funext fun a => Fin.ext (by match a with | ⟨0, _⟩ => rfl | ⟨1, _⟩ => exact Nat.mod_eq_of_lt (i 1).isLt)
  have hb : idx_main_v77 (idx_main_v78 (idx_main_v79 (idx_main_v82 i))) = ix2 0 (i 1) :=
    funext fun a => Fin.ext (by match a with | ⟨0, _⟩ => rfl | ⟨1, _⟩ => exact Nat.mod_eq_of_lt (i 1).isLt)
  have hd : idx_main_v81 (idx_main_v83 i) = ix3 (i 0) (i 2) (i 3) :=
    funext fun a => Fin.ext (by match a with | ⟨0, _⟩ => rfl | ⟨1, _⟩ => rfl | ⟨2, _⟩ => rfl)
  rw [val_main_v87_apply, val_main_v86_apply, val_main_v76_apply, val_main_v75_apply, val_main_v74_apply, ha,
    val_main_v85_apply, val_main_v84_apply, val_main_v82_apply, val_main_v80_apply, val_main_v79_apply,
    val_main_v78_apply, val_main_v77_apply, hb, val_main_v83_apply, val_main_v81_apply, hd]
  rfl

theorem tTerm1_apply (i : S2x8x2048x2048.Idx) :
    val_main_v102 (F := Ideal) x3 x4 x7 x8 i
      = x7 (ix2 1 (i 1)) * Ideal.exp ((-(x8 (ix2 1 (i 1)))) * val_main_v13 (F := Ideal) x3 x4 (ix3 (i 0) (i 2) (i 3))) := by
  have ha : idx_main_v89 (idx_main_v90 (idx_main_v91 (idx_main_v101 i))) = ix2 1 (i 1) :=
    funext fun a => Fin.ext (by match a with | ⟨0, _⟩ => rfl | ⟨1, _⟩ => exact Nat.mod_eq_of_lt (i 1).isLt)
  have hb : idx_main_v92 (idx_main_v93 (idx_main_v94 (idx_main_v97 i))) = ix2 1 (i 1) :=
    funext fun a => Fin.ext (by match a with | ⟨0, _⟩ => rfl | ⟨1, _⟩ => exact Nat.mod_eq_of_lt (i 1).isLt)
  have hd : idx_main_v96 (idx_main_v98 i) = ix3 (i 0) (i 2) (i 3) :=
    funext fun a => Fin.ext (by match a with | ⟨0, _⟩ => rfl | ⟨1, _⟩ => rfl | ⟨2, _⟩ => rfl)
  rw [val_main_v102_apply, val_main_v101_apply, val_main_v91_apply, val_main_v90_apply, val_main_v89_apply, ha,
    val_main_v100_apply, val_main_v99_apply, val_main_v97_apply, val_main_v95_apply, val_main_v94_apply,
    val_main_v93_apply, val_main_v92_apply, hb, val_main_v98_apply, val_main_v96_apply, hd]
  rfl

theorem tTerm2_apply (i : S2x8x2048x2048.Idx) :
    val_main_v117 (F := Ideal) x3 x4 x7 x8 i
      = x7 (ix2 2 (i 1)) * Ideal.exp ((-(x8 (ix2 2 (i 1)))) * val_main_v13 (F := Ideal) x3 x4 (ix3 (i 0) (i 2) (i 3))) := by
  have ha : idx_main_v104 (idx_main_v105 (idx_main_v106 (idx_main_v116 i))) = ix2 2 (i 1) :=
    funext fun a => Fin.ext (by match a with | ⟨0, _⟩ => rfl | ⟨1, _⟩ => exact Nat.mod_eq_of_lt (i 1).isLt)
  have hb : idx_main_v107 (idx_main_v108 (idx_main_v109 (idx_main_v112 i))) = ix2 2 (i 1) :=
    funext fun a => Fin.ext (by match a with | ⟨0, _⟩ => rfl | ⟨1, _⟩ => exact Nat.mod_eq_of_lt (i 1).isLt)
  have hd : idx_main_v111 (idx_main_v113 i) = ix3 (i 0) (i 2) (i 3) :=
    funext fun a => Fin.ext (by match a with | ⟨0, _⟩ => rfl | ⟨1, _⟩ => rfl | ⟨2, _⟩ => rfl)
  rw [val_main_v117_apply, val_main_v116_apply, val_main_v106_apply, val_main_v105_apply, val_main_v104_apply, ha,
    val_main_v115_apply, val_main_v114_apply, val_main_v112_apply, val_main_v110_apply, val_main_v109_apply,
    val_main_v108_apply, val_main_v107_apply, hb, val_main_v113_apply, val_main_v111_apply, hd]
  rfl

theorem tTerm3_apply (i : S2x8x2048x2048.Idx) :
    val_main_v132 (F := Ideal) x3 x4 x7 x8 i
      = x7 (ix2 3 (i 1)) * Ideal.exp ((-(x8 (ix2 3 (i 1)))) * val_main_v13 (F := Ideal) x3 x4 (ix3 (i 0) (i 2) (i 3))) := by
  have ha : idx_main_v119 (idx_main_v120 (idx_main_v121 (idx_main_v131 i))) = ix2 3 (i 1) :=
    funext fun a => Fin.ext (by match a with | ⟨0, _⟩ => rfl | ⟨1, _⟩ => exact Nat.mod_eq_of_lt (i 1).isLt)
  have hb : idx_main_v122 (idx_main_v123 (idx_main_v124 (idx_main_v127 i))) = ix2 3 (i 1) :=
    funext fun a => Fin.ext (by match a with | ⟨0, _⟩ => rfl | ⟨1, _⟩ => exact Nat.mod_eq_of_lt (i 1).isLt)
  have hd : idx_main_v126 (idx_main_v128 i) = ix3 (i 0) (i 2) (i 3) :=
    funext fun a => Fin.ext (by match a with | ⟨0, _⟩ => rfl | ⟨1, _⟩ => rfl | ⟨2, _⟩ => rfl)
  rw [val_main_v132_apply, val_main_v131_apply, val_main_v121_apply, val_main_v120_apply, val_main_v119_apply, ha,
    val_main_v130_apply, val_main_v129_apply, val_main_v127_apply, val_main_v125_apply, val_main_v124_apply,
    val_main_v123_apply, val_main_v122_apply, hb, val_main_v128_apply, val_main_v126_apply, hd]
  rfl

end Cert.RbfBias.Ref

end
-- ==== Proof.RefResult.lean ====
/-
  The reference program's result is the specified function of its arguments.

  Read at an index (b, h, q, k) the reference adds its eight radial-basis terms to the score one after the other;
  each term and each squared distance was read in the module of the terms. What is left is the grouping of
  the sums, which the specification's law for "score first" states.
-/
import proofs.«128559_j17781164605640_1_alg».proof.Proof.RefTerms
import proofs.«128559_j17781164605640_1_alg».proof.Proof.Spec

noncomputable section

namespace Cert.RbfBias.Ref

open Cert.ReferenceIdeal Cert.ReferenceIdeal.Read Idealize.ShloMosaic Idealize.ShloMosaic.ValueIdx

/-- The last stage of the reference, as one function of the nine arguments, is `result`. -/
theorem reference_eq (x0 : (⟨S2x8x2048x2048, .f32⟩ : BufTy).Contents (Elt Ideal))
    (x1 x2 : (⟨S2x2048x3, .f32⟩ : BufTy).Contents (Elt Ideal))
    (x3 x4 : (⟨S2x2048x1, .f32⟩ : BufTy).Contents (Elt Ideal))
    (x5 x6 x7 x8 : (⟨S4x8, .f32⟩ : BufTy).Contents (Elt Ideal)) :
    val_main_v133 (F := Ideal) x0 x1 x2 x3 x4 x5 x6 x7 x8 = result x0 x1 x2 x3 x4 x5 x6 x7 x8 := by
  funext i
  rw [val_main_v133_apply, val_main_v118_apply, val_main_v103_apply, val_main_v88_apply, val_main_v73_apply,
    val_main_v58_apply, val_main_v43_apply, val_main_v28_apply,
    sTerm0_apply, sTerm1_apply, sTerm2_apply, sTerm3_apply, tTerm0_apply, tTerm1_apply, tTerm2_apply, tTerm3_apply,
    dist3_apply, dist1_apply]
  exact biased_of_score_first (x0 i) (fun e => x1 (ix3 (i 0) (i 2) e)) (fun e => x2 (ix3 (i 0) (i 3) e))
    (fun e => x3 (ix3 (i 0) (i 2) e)) (fun e => x4 (ix3 (i 0) (i 3) e))
    (fun r => x5 (ix2 r (i 1))) (fun r => x6 (ix2 r (i 1))) (fun r => x7 (ix2 r (i 1))) (fun r => x8 (ix2 r (i 1)))

end Cert.RbfBias.Ref

end
-- ==== Proof.lean ====
/-
  The certificate of the radial-basis bias kernel against its jnp reference.

  Both programs add to an attention score, for every batch b, head h, query q and key k, eight radial-basis terms:
  four over the squared distance of the query's and the key's three s-features and four over the squared distance
  of their one t-feature, each an amplitude times the exponential of minus a rate times the distance, amplitude
  and rate taken from row r, column h of a small table. The kernel accumulates the bias from zero, block by
  block of 256 queries and 512 keys, and adds it to the score block last; the reference adds the terms to the
  score one after the other, over whole arrays. On the extended reals both are the one function `result` of
  the nine argument arrays (Proof/Spec.lean): the kernel's result array by Proof/KernelResult.lean, the
  reference's by Proof/RefResult.lean. Only associativity of addition, 0 + x = x and 0 − x = −x are used, so the
  precondition is never opened. The ideal pass rewrote nothing, so `preserves` is trivial; the two kernels' frames
  are the generated frame certificates and the reference's frame is its run with the result dropped.
-/
import proofs.«128559_j17781164605640_1_alg».proof.Defs
import proofs.«128559_j17781164605640_1_alg».proof.Proof.Gen.Kernel
import proofs.«128559_j17781164605640_1_alg».proof.Proof.Gen.Kernel.Frame
import proofs.«128559_j17781164605640_1_alg».proof.Proof.Gen.KernelIdeal
import proofs.«128559_j17781164605640_1_alg».proof.Proof.Gen.KernelIdeal.Frame
import proofs.«128559_j17781164605640_1_alg».proof.Proof.Gen.ReferenceIdeal
import proofs.«128559_j17781164605640_1_alg».proof.Proof.Gen.Pre_finite_inputs
import proofs.«128559_j17781164605640_1_alg».proof.Proof.Gen.ReferenceIdeal.Run
import proofs.«128559_j17781164605640_1_alg».proof.Proof.Gen.ReferenceIdeal.Read
import proofs.«128559_j17781164605640_1_alg».proof.Proof.KernelResult
import proofs.«128559_j17781164605640_1_alg».proof.Proof.RefResult
import Idealize.ShloMosaic.Adequacy
import Idealize.ShloMosaic.Init

noncomputable section

namespace Cert.Proof

open Idealize.ShloMosaic Idealize.ShloMosaic.TcCoe Idealize.SL.Sem

theorem frame_kernel : Cert.frame_Kernel :=
  fun m ρ _ => Cert.Kernel.Gen.frame m ρ

theorem frame_kernelIdeal : Cert.frame_KernelIdeal :=
  fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From memories that agree on the nine arguments both idealized programs end with the result array at
    `result` of those arguments. -/
theorem algebraic : Cert.algebraic_KernelIdeal_ReferenceIdeal := by
  intro m ρ m' ρ' _ hagree
  refine ⟨_, Cert.RbfBias.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v133_eq, Cert.RbfBias.Ref.reference_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
